-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : FVec F S16384x4096 .f32) (main_arg2 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩
abbrev S16384x1 : Shape := ⟨2, ![16384, 1]⟩
abbrev S8192x4096 : Shape := ⟨2, ![8192, 4096]⟩
abbrev S8192x16384 : Shape := ⟨2, ![8192, 16384]⟩
abbrev S512x4096 : Shape := ⟨2, ![512, 4096]⟩
abbrev S1024x4096 : Shape := ⟨2, ![1024, 4096]⟩
abbrev S512x1024 : Shape := ⟨2, ![512, 1024]⟩
abbrev S4x2048x16384 : Shape := ⟨3, ![4, 2048, 16384]⟩

abbrev nBuf : Space → Nat
  | .hbm => 28
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S_, .f32⟩
  | .hbm, ⟨4, _⟩ => ⟨S16384x4096, .f32⟩
  | .hbm, ⟨5, _⟩ => ⟨S16384x4096, .i1⟩
  | .hbm, ⟨6, _⟩ => ⟨S_, .f32⟩
  | .hbm, ⟨7, _⟩ => ⟨S16384x4096, .f32⟩
  | .hbm, ⟨8, _⟩ => ⟨S16384x4096, .i1⟩
  | .hbm, ⟨9, _⟩ => ⟨S_, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x1, .f32⟩
  | .hbm, ⟨21, _⟩ => ⟨S16384x4096, .f32⟩
  | .hbm, ⟨22, _⟩ => ⟨S16384x4096, .f32⟩
  | .hbm, ⟨23, _⟩ => ⟨S16384x4096, .bf16⟩
  | .hbm, ⟨24, _⟩ => ⟨S8192x4096, .f32⟩
  | .hbm, ⟨25, _⟩ => ⟨S8192x4096, .bf16⟩
  | .hbm, ⟨26, _⟩ => ⟨S8192x16384, .f32⟩
  | .hbm, ⟨27, _⟩ => ⟨S4x2048x16384, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S512x1024, .f32⟩
  | .local _ .vmem, ⟨5, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_3 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S16384x4096 : S_.BroadcastsInDim S16384x4096 (![] : Fin 0 → Fin S16384x4096.rank)
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bitsLt_bf16_f32 : FTy.bits .bf16 < FTy.bits .f32
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1024_S512x1024_0_0 : ∀ a, (![0, 0] : Fin 2 → Nat) a + S512x1024.size a ≤ S512x1024.size a
  h_S512x1024 : 0 < S512x1024.numel
  shapeCasts_S8192x16384_S4x2048x16384 : S8192x16384.ShapeCasts S4x2048x16384
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S16384x4096.size a
  hwx0_1 : ∀ i : grid0.Coords, EltTy.bits .bf16 = 32 ∨ (Rect.block (s := S16384x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x16384.size a
  hwx0_2 : ∀ i : grid0.Coords, EltTy.bits .f32 = 32 ∨ (Rect.block (s := S8192x16384) S512x1024.size (cc0_transform_2 i) (hinb0_2 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v14) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩
abbrev S16384x1 : Shape := ⟨2, ![16384, 1]⟩
abbrev S4x2048x16384 : Shape := ⟨3, ![4, 2048, 16384]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S_, .f32⟩
  | .hbm, ⟨4, _⟩ => ⟨S16384x4096, .f32⟩
  | .hbm, ⟨5, _⟩ => ⟨S16384x4096, .i1⟩
  | .hbm, ⟨6, _⟩ => ⟨S_, .f32⟩
  | .hbm, ⟨7, _⟩ => ⟨S16384x4096, .f32⟩
  | .hbm, ⟨8, _⟩ => ⟨S16384x4096, .i1⟩
  | .hbm, ⟨9, _⟩ => ⟨S_, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x1, .f32⟩
  | .hbm, ⟨21, _⟩ => ⟨S16384x4096, .f32⟩
  | .hbm, ⟨22, _⟩ => ⟨S16384x4096, .f32⟩
  | .hbm, ⟨23, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_3 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Spec.lean ====
/-
  A linear layer whose weight is stored [out, in], on the extended reals: for x : [4, 2048, 4096] and
  W : [16384, 4096] the result at (b, s, o) is the sum over the 4096 input features k of x(b, s, k) · W(o, k).
  The same layer on flattened rows (row r = b · 2048 + s of an [8192, 4096] matrix) is stated beside it, with the
  equation that joins the two: the flattened result read at row b · 2048 + s is the unflattened result at (b, s).
-/
import Idealize.ShloMosaic.Lib.ValueIdx
import Idealize.ShloMosaic.PureOps.Ideal

noncomputable section

open scoped BigOperators

namespace Cert.TernaryLinear

open Idealize.ShloMosaic Idealize.ShloMosaic.ValueIdx

/-- The layer on [4, 2048, 4096] inputs: out(b, s, o) = Σ_k x(b, s, k) · W(o, k). -/
def linear (x : FVec Ideal ⟨3, ![4, 2048, 4096]⟩ .f32) (W : FVec Ideal ⟨2, ![16384, 4096]⟩ .f32) :
    FVec Ideal ⟨3, ![4, 2048, 16384]⟩ .f32 :=
  fun i => ∑ k : Fin 4096, x (ix3 (i 0) (i 1) k) * W (ix2 (i 2) k)

/-- The layer on flattened rows: out(r, o) = Σ_k A(r, k) · B(o, k), whatever formats the two factors are stored in. -/
def linearRows {φ₁ φ₂ : FTy} (A : FVec Ideal ⟨2, ![8192, 4096]⟩ φ₁) (B : FVec Ideal ⟨2, ![16384, 4096]⟩ φ₂) :
    FVec Ideal ⟨2, ![8192, 16384]⟩ .f32 :=
  fun j => ∑ k : Fin 4096, A (ix2 (j 0) k) * B (ix2 (j 1) k)

/-- Row b · 2048 + s of the flattened input is row (b, s) of the input: then the flattened layer at that row is the
    layer at (b, s). -/
theorem linearRows_flat {φ₁ φ₂ : FTy} (x : FVec Ideal ⟨3, ![4, 2048, 4096]⟩ .f32) (W : FVec Ideal ⟨2, ![16384, 4096]⟩ .f32)
    (A : FVec Ideal ⟨2, ![8192, 4096]⟩ φ₁) (B : FVec Ideal ⟨2, ![16384, 4096]⟩ φ₂)
    (hA : ∀ (b : Fin 4) (s : Fin 2048) (k : Fin 4096) (r : Fin 8192), r.val = b.val * 2048 + s.val → A (ix2 r k) = x (ix3 b s k))
    (hB : ∀ (o : Fin 16384) (k : Fin 4096), B (ix2 o k) = W (ix2 o k))
    (b : Fin 4) (s : Fin 2048) (o : Fin 16384) (r : Fin 8192) (hr : r.val = b.val * 2048 + s.val) :
    linearRows A B (ix2 r o) = linear x W (ix3 b s o) := by
  unfold linearRows linear
  refine Finset.sum_congr rfl fun k _ => ?_
  show A (ix2 r k) * B (ix2 o k) = x (ix3 b s k) * W (ix2 o k)
  rw [hA b s k r hr, hB o k]

end Cert.TernaryLinear

end
-- ==== Proof.RefSide.lean ====
/-
  The reference at an entry: jnp's einsum 'bsi,oi->bso' lowers to one dot_general contracting the input's last axis
  with the weight's last axis, which on the extended reals is the sum over the 4096 features of
  x(b, s, k) · W(o, k): the linear layer of the specification, over the reference's own scaled ternary weight.
-/
import proofs.«127672_j80994493268388_1_alg».proof.Proof.Gen.ReferenceIdeal.Read
import proofs.«127672_j80994493268388_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's result is the linear layer of its input and its prepared weight. -/
theorem result_eq (x0 : FVec Ideal S4x2048x4096 .f32) (x1 : FVec Ideal S16384x4096 .f32) (x2 : FVec Ideal S16384 .f32) :
    val_main_v12 (F := Ideal) x0 x1 x2 = Cert.TernaryLinear.linear x0 (val_main_v11 (F := Ideal) x1 x2) := by
  funext i
  rw [val_main_v12_apply]
  unfold Cert.TernaryLinear.linear
  refine Finset.sum_congr rfl fun k _ => ?_
  have el : lidx_main_v12 i k = ix3 (i 0) (i 1) k := funext fun a => Fin.ext (by
    match a with
    | ⟨0, _⟩ => rfl
    | ⟨1, _⟩ => rfl
    | ⟨2, _⟩ => rfl)
  have er : ridx_main_v12 i k = ix2 (i 2) k := funext fun a => Fin.ext (by
    match a with
    | ⟨0, _⟩ => rfl
    | ⟨1, _⟩ => rfl)
  rw [el, er]
  rfl

end Cert.ReferenceIdeal.RefValue

end
-- ==== Proof.LibRowDot.lean ====
/-
  The product of ROWS BY ROWS read at an entry on the extended reals: an [m, k] factor against an [n, k] factor, both
  contracted along their second axis (the product of A with the transpose of B, as a linear layer spells it with its
  weight stored [out, in]). Into a zero accumulator, entry (a, b) is the sum over c of A(a, c) · B(b, c).
-/
import Idealize.ShloMosaic.Lib.ValueIdx
import Idealize.ShloMosaic.PureOps.Ideal.Laws

noncomputable section

open scoped BigOperators

namespace Cert.RowDot

open Idealize.ShloMosaic Idealize.ShloMosaic.ValueIdx

/-- The dimension numbers of the product of rows by rows: both factors contracted along axis 1. -/
abbrev rowDot (m n k : Nat) (wf : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ where
  lhsContracting := [1]
  rhsContracting := [1]
  lhsNonContracting := [0]
  rhsNonContracting := [0]
  lhsBatch := []
  rhsBatch := []
  wf := wf

/-- Rows by rows, into the zero accumulator: entry (a, b) is the sum over c of A(a, c) · B(b, c). -/
theorem matmul_rowDot_apply {m n k : Nat} {φ₁ φ₂ : FTy}
    (wf : DotDims.WF ⟨2, ![m, k]⟩ ⟨2, ![n, k]⟩ ⟨2, ![m, n]⟩ [1] [1] [0] [0] [] []) (prec : Option ContractPrecision)
    (A : FVec Ideal ⟨2, ![m, k]⟩ φ₁) (B : FVec Ideal ⟨2, ![n, k]⟩ φ₂) (a : Fin m) (b : Fin n) :
    matmul (rowDot m n k wf) prec A B (constant ⟨2, ![m, n]⟩ .f32 0x00000000#32) (ix2 a b)
      = ∑ c : Fin k, A (ix2 a c) * B (ix2 b c) := by
  show FloatOps.matmul (rowDot m n k wf) prec A B (constant ⟨2, ![m, n]⟩ .f32 0x00000000#32) (ix2 a b) = _
  rw [Ideal.matmul_constant_zero_apply, ← Equiv.sum_comp (contrEquiv1 (rowDot m n k wf) k rfl rfl).symm]
  refine Finset.sum_congr rfl fun c _ => ?_
  have c2 := contrEquiv1_symm_val (rowDot m n k wf) k rfl rfl c
  have l2 : (rowDot m n k wf).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (rowDot m n k wf).rhsIdx (ix2 a b) ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowDot

end
-- ==== Proof.KernelBlock.lean ====
/-
  One grid point of the kernel: the body multiplies a [512, 4096] block of activations by the transpose of a
  [1024, 4096] block of weights into a zero accumulator. Read at entry (a, b) of the [512, 1024] result it is the
  sum over the 4096 features c of X(a, c) · Wt(b, c): no rounding, no chunk order, on the extended reals.
-/
import proofs.«127672_j80994493268388_1_alg».proof.Proof.Gen.KernelIdeal.Skeleton
import proofs.«127672_j80994493268388_1_alg».proof.Proof.LibRowDot
import proofs.«127672_j80994493268388_1_alg».proof.Proof.Spec
import Idealize.ShloMosaic.Lib.Pipeline.Value

noncomputable section

open scoped BigOperators

namespace Cert.KernelIdeal.Block

open Cert.KernelIdeal Cert.KernelIdeal.Gen Idealize.ShloMosaic Idealize.ShloMosaic.ValueIdx

/-- The body's one stored value at entry (a, b): the row a of the activation block against the row b of the weight block. -/
theorem pay_apply (x0 : Vec Ideal S512x4096 .bf16) (x1 : Vec Ideal S1024x4096 .bf16) (a : Fin 512) (b : Fin 1024) :
    k0_pay1 (F := Ideal) x0 x1 (ix2 a b) = ∑ c : Fin 4096, x0 (ix2 a c) * x1 (ix2 b c) := by
  unfold k0_pay1
  simp only [shapeCast_self]
  exact Cert.RowDot.matmul_rowDot_apply Facts₀.dot_S512x4096_S1024x4096_S512x1024_1_1_0_0_n_n_wf none x0 x1 a b

/-- When the activation block holds rows p · 512 + a of a flattened [8192, 4096] matrix X and the weight block rows
    q · 1024 + b of a [16384, 4096] matrix Wt, the body's value at (a, b) is the flattened layer of X and Wt at
    (p · 512 + a, q · 1024 + b). -/
theorem block_entry (X : Vec Ideal S8192x4096 .bf16) (Wt : Vec Ideal S16384x4096 .bf16)
    (x0 : Vec Ideal S512x4096 .bf16) (x1 : Vec Ideal S1024x4096 .bf16) (p q : Nat)
    (h0 : ∀ (a : Fin 512) (k : Fin 4096) (r : Fin 8192), r.val = p * 512 + a.val → x0 (ix2 a k) = X (ix2 r k))
    (h1 : ∀ (b : Fin 1024) (k : Fin 4096) (o : Fin 16384), o.val = q * 1024 + b.val → x1 (ix2 b k) = Wt (ix2 o k))
    (a : Fin 512) (b : Fin 1024) (r : Fin 8192) (o : Fin 16384) (hr : r.val = p * 512 + a.val) (ho : o.val = q * 1024 + b.val) :
    k0_pay1 (F := Ideal) x0 x1 (ix2 a b) = Cert.TernaryLinear.linearRows (φ₁ := .bf16) (φ₂ := .bf16) X Wt (ix2 r o) := by
  rw [pay_apply]
  unfold Cert.TernaryLinear.linearRows
  refine Finset.sum_congr rfl fun k _ => ?_
  show x0 (ix2 a k) * x1 (ix2 b k) = X (ix2 r k) * Wt (ix2 o k)
  rw [h0 a k r hr, h1 b k o ho]

end Cert.KernelIdeal.Block

end
-- ==== Proof.KernelArray.lean ====
/-
  From blocks to the array. The grid is 16 × 16; point (i, j) reads rows [512 i, 512 i + 512) of the flattened
  activations, rows [1024 j, 1024 j + 1024) of the weight, and writes block (i, j) of the [8192, 16384] result. Every
  entry of the result lies in exactly the block (r / 512, o / 1024), so after the run the result array is the
  flattened layer of the two arrays the region was entered with.
-/
import proofs.«127672_j80994493268388_1_alg».proof.Proof.Gen.KernelIdeal.Frame
import proofs.«127672_j80994493268388_1_alg».proof.Proof.KernelBlock
import Idealize.ShloMosaic.Lib.Pipeline.Value
import Idealize.ShloMosaic.Lib.ValueIdx

set_option maxRecDepth 16384

noncomputable section

open scoped BigOperators

namespace Cert.KernelIdeal.Arr

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_off : (![0, 0] : Fin 2 → Nat) = fun _ => 0 := funext fun a => by fin_cases a <;> rfl

/-- The block indices, decided over the 256 points: the activation block's row index is the output block's row
    index, the weight block's row index is the output block's column index, neither input is blocked along the
    features, and both output block indices stay below 16. -/
theorem idx_facts : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15
    ∧ win0_2.index t (1 : Fin 2) ≤ 15 :=
  (by decide +kernel : ∀ t : Fin grid0.N, _)

/-- Every one of the 16 × 16 output blocks is some point's. -/
theorem idx_onto : ∀ (q0 : Fin 16) (q1 : Fin 16), ∃ t : Fin cfg0.N, win0_2.index t = ![q0.val, q1.val] :=
  (by decide +kernel : ∀ (q0 : Fin 16) (q1 : Fin 16), ∃ t : Fin grid0.N, win0_2.index t = ![q0.val, q1.val])

/-- The flattened activations and the weight as the region finds them. -/
abbrev xarr (c : Dev nD) : Vec Ideal S8192x4096 .bf16 := V m c main_v14
abbrev warr (c : Dev nD) : Vec Ideal S16384x4096 .bf16 := V m c main_v12
/-- The flattened layer of the two. -/
abbrev rowsOf (c : Dev nD) : Vec Ideal S8192x16384 .f32 := Cert.TernaryLinear.linearRows (φ₁ := .bf16) (φ₂ := .bf16) (xarr m c) (warr m c)

/-- The activation block at point t holds the rows of the flattened activations under the output block's rows. -/
theorem xblk_entry (c : Dev nD) (t : Fin cfg0.N) (a : Fin 512) (k : Fin 4096) (r : Fin 8192)
    (hr : r.val = win0_2.index t (0 : Fin 2) * 512 + a.val) :
    (iblk m c 0 t : Vec Ideal S512x4096 .bf16) (ix2 a k) = xarr m c (ix2 r k) := by
  obtain ⟨e0, e1, -, -, -, -⟩ := idx_facts t
  show V m c main_v14 (((cfg0.win 0).blk t).view.emb (ix2 a k)) = V m c main_v14 (ix2 r k)
  refine congrArg (V m c main_v14) ?_
  funext ax; apply Fin.ext
  match ax with
  | ⟨0, _⟩ => show win0_0.index t (0 : Fin 2) * 512 + 1 * a.val = r.val; omega
  | ⟨1, _⟩ => show win0_0.index t (1 : Fin 2) * 4096 + 1 * k.val = k.val; omega

/-- The weight block at point t holds the rows of the weight under the output block's columns. -/
theorem wblk_entry (c : Dev nD) (t : Fin cfg0.N) (b : Fin 1024) (k : Fin 4096) (o : Fin 16384)
    (ho : o.val = win0_2.index t (1 : Fin 2) * 1024 + b.val) :
    (iblk m c 1 t : Vec Ideal S1024x4096 .bf16) (ix2 b k) = warr m c (ix2 o k) := by
  obtain ⟨-, -, e2, e3, -, -⟩ := idx_facts t
  show V m c main_v12 (((cfg0.win 1).blk t).view.emb (ix2 b k)) = V m c main_v12 (ix2 o k)
  refine congrArg (V m c main_v12) ?_
  funext ax; apply Fin.ext
  match ax with
  | ⟨0, _⟩ => show win0_1.index t (0 : Fin 2) * 1024 + 1 * b.val = o.val; omega
  | ⟨1, _⟩ => show win0_1.index t (1 : Fin 2) * 4096 + 1 * k.val = k.val; omega

/-- What point t writes back is block t of the flattened layer. -/
theorem flushed_eq (c : Dev nD) (t : Fin cfg0.N) :
    (dats m 0 c).flushed 2 t = ((cfg0.win 2).blk t).view.read (Elt Ideal) (rowsOf m c) := by
  show (cfg0.win 2).cut (grid0.coords t) ((dats m 0 c).after 2 t) = _
  rw [after0_2]
  unfold out0_2
  rw [View.canon_unit_zero zero_off]
  simp only [View.ld_unit_zero (S := S512x4096) zero_off, View.ld_unit_zero (S := S1024x4096) zero_off]
  obtain ⟨-, -, -, -, e4, e5⟩ := idx_facts t
  funext j
  obtain ⟨a, b, rfl⟩ : ∃ (a : Fin 512) (b : Fin 1024), j = ix2 a b := ⟨j 0, j 1, eq_ix2 j⟩
  have hemb : ((cfg0.win 2).blk t).view.emb (ix2 a b)
      = ix2 (⟨win0_2.index t (0 : Fin 2) * 512 + a.val, by have := a.isLt; omega⟩ : Fin 8192)
          (⟨win0_2.index t (1 : Fin 2) * 1024 + b.val, by have := b.isLt; omega⟩ : Fin 16384) := by
    funext ax; apply Fin.ext
    match ax with
    | ⟨0, _⟩ => show win0_2.index t (0 : Fin 2) * 512 + 1 * a.val = win0_2.index t (0 : Fin 2) * 512 + a.val; omega
    | ⟨1, _⟩ => show win0_2.index t (1 : Fin 2) * 1024 + 1 * b.val = win0_2.index t (1 : Fin 2) * 1024 + b.val; omega
  show k0_pay1 (F := Ideal) (iblk m c 0 t) (iblk m c 1 t) (ix2 a b) = rowsOf m c (((cfg0.win 2).blk t).view.emb (ix2 a b))
  rw [hemb]
  exact Block.block_entry (xarr m c) (warr m c) (iblk m c 0 t) (iblk m c 1 t) (win0_2.index t (0 : Fin 2)) (win0_2.index t (1 : Fin 2))
    (fun a k r hr => xblk_entry m c t a k r hr) (fun b k o ho => wblk_entry m c t b k o ho) a b _ _ rfl rfl

/-- An entry of the result is in point t's block iff each coordinate is in the block's range on its axis. -/
theorem mem_blk (t : Fin cfg0.N) (i : S8192x16384.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v15).slice (win0_2.rect t)).set ↔ _
  rw [View.set_slice_whole, Rect.mem_set_unit]
  exact Iff.rfl

/-- Entry (r, o) lies in the block of the point whose output block is (r / 512, o / 1024), and that point writes back. -/
theorem cover (i : S8192x16384.Idx) :
    ∃ t : Fin cfg0.N, (cfg0.win 2).flush t = true ∧ i ∈ ((cfg0.win 2).blk t).view.set := by
  have hi0 : (i 0).val < 8192 := (i 0).isLt
  have hi1 : (i 1).val < 16384 := (i 1).isLt
  obtain ⟨t, ht⟩ := idx_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The result array after the run is the flattened layer of the arrays the region was entered with. -/
theorem final (c : Dev nD) : (dats m 0 c).arrAt 2 cfg0.N = rowsOf m c :=
  (dats m 0 c).arrAt_eq_of_cover 2 (rowsOf m c) (fun t _ => flushed_eq m c t) (cover)

end Cert.KernelIdeal.Arr

end
-- ==== Proof.KernelEnds.lean ====
/-
  The two ends of the kernel's program around its one region, on the extended reals.
  Before the region: the activations are the input x reshaped to [8192, 4096] (row b · 2048 + s is row (b, s)) and
  narrowed to bf16, which changes no value here; the weight is (w + (q − w)) · scale[o], q the ternary quantisation of w by
  the thresholds ±0.5, narrowed likewise: the very term the reference prepares before its product.
  After the region: the [8192, 16384] result is reshaped back to [4, 2048, 16384].
  So the program's result at (b, s, o) is the linear layer of x and the prepared weight at (b, s, o).
-/
import proofs.«127672_j80994493268388_1_alg».proof.Proof.KernelArray
import proofs.«127672_j80994493268388_1_alg».proof.Proof.Gen.ReferenceIdeal.Read
import Idealize.ShloMosaic.Lib.StableHlo.Run

set_option maxRecDepth 16384

noncomputable section

open scoped BigOperators

namespace Cert.KernelIdeal.Ends

open Cert.KernelIdeal Cert.KernelIdeal.Gen Cert.KernelIdeal.Arr Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The weight both programs prepare from w and scale (the reference's stage before its product). -/
abbrev weight (c : Dev nD) : FVec Ideal S16384x4096 .f32 :=
  Cert.ReferenceIdeal.Read.val_main_v11 (F := Ideal) (m ((c : Thread nD τ).loc main_arg1)) (m ((c : Thread nD τ).loc main_arg2))

/-- Row b · 2048 + s of the flattened activations is row (b, s) of the input. -/
theorem xarr_entry (c : Dev nD) (b : Fin 4) (s : Fin 2048) (k : Fin 4096) (r : Fin 8192) (hr : r.val = b.val * 2048 + s.val) :
    xarr m c (ix2 r k) = m ((c : Thread nD τ).loc main_arg0) (ix3 b s k) := by
  have e : xarr m c
      = truncf (F := Ideal) .bf16 (shapeCast S8192x4096 (m ((c : Thread nD τ).loc main_arg0) : FVec Ideal S4x2048x4096 .f32)
          shapeCasts_S4x2048x4096_S8192x4096) bitsLt_bf16_f32 := by
    show V m c main_v14 = _
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  rw [e]
  show shapeCast S8192x4096 (m ((c : Thread nD τ).loc main_arg0) : FVec Ideal S4x2048x4096 .f32)
    shapeCasts_S4x2048x4096_S8192x4096 (ix2 r k) = _
  refine shapeCast_apply _ _ (ix2 r k) (ix3 b s k) ?_
  rw [Shape.rowMajor_val_three, Shape.rowMajor_val_two]
  show (b.val * 2048 + s.val) * 4096 + k.val = r.val * 4096 + k.val
  rw [hr]

/-- The weight the region finds is the prepared weight. -/
theorem warr_entry (c : Dev nD) (o : Fin 16384) (k : Fin 4096) : warr m c (ix2 o k) = weight m c (ix2 o k) := by
  have e : warr m c = truncf (F := Ideal) .bf16 (weight m c) bitsLt_bf16_f32 := by
    show V m c main_v12 = _
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  rw [e]
  rfl

/-- The program's result at (b, s, o) is the region's result at row b · 2048 + s, column o. -/
theorem tail_entry (c : Dev nD) (b : Fin 4) (s : Fin 2048) (o : Fin 16384) (r : Fin 8192) (hr : r.val = b.val * 2048 + s.val) :
    (Pipeline.afterTail₀ cfgs (dats m) 0 (V0 m) [hostOps1] c main_v16 : Vec Ideal S4x2048x16384 .f32) (ix3 b s o)
      = rowsOf m c (ix2 r o) := by
  have hw : Pipeline.withArrays (cfgs 0).spec c (V0 m c) (fun w => (dats m 0 c).arrAt w (cfgs 0).N) (Proc.devRef .tc main_v15)
      = rowsOf m c := (Pipeline.withArrays_arr spec0 launch0.win.arr_inj c _ _ 2).trans (final m c)
  have e : (Pipeline.afterTail₀ cfgs (dats m) 0 (V0 m) [hostOps1] c main_v16 : Vec Ideal S4x2048x16384 .f32)
      = shapeCast S4x2048x16384 (rowsOf m c) shapeCasts_S8192x16384_S4x2048x16384 := by
    unfold Pipeline.afterTail₀
    show StableHlo.after hostOps1 _ (Proc.devRef .tc main_v16) = _
    after_results
    rw [hw]
    rfl
  rw [e]
  refine shapeCast_apply _ _ (ix3 b s o) (ix2 r o) ?_
  rw [Shape.rowMajor_val_three, Shape.rowMajor_val_two]
  show r.val * 16384 + o.val = (b.val * 2048 + s.val) * 16384 + o.val
  rw [hr]

/-- The program's result is the linear layer of the input and the prepared weight. -/
theorem result_eq (c : Dev nD) :
    (Pipeline.afterTail₀ cfgs (dats m) 0 (V0 m) [hostOps1] c main_v16 : Vec Ideal S4x2048x16384 .f32)
      = Cert.TernaryLinear.linear (m ((c : Thread nD τ).loc main_arg0)) (weight m c) := by
  funext i
  obtain ⟨b, s, o, rfl⟩ : ∃ (b : Fin 4) (s : Fin 2048) (o : Fin 16384), i = ix3 b s o := ⟨i 0, i 1, i 2, eq_ix3 i⟩
  have hb := b.isLt
  have hs := s.isLt
  rw [tail_entry m c b s o ⟨b.val * 2048 + s.val, by omega⟩ rfl]
  exact Cert.TernaryLinear.linearRows_flat (m ((c : Thread nD τ).loc main_arg0)) (weight m c) (xarr m c) (warr m c)
    (fun b s k r hr => xarr_entry m c b s k r hr) (fun o k => warr_entry m c o k) b s o _ rfl

/-- The kernel's run with its result named: every weakly fair execution ends with the result at the linear layer of
    the input and the prepared weight, the three arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v16) = Cert.TernaryLinear.linear (m ((c : Thread nD τ).loc main_arg0)) (weight m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v16 (Pipeline.mem_restRefs_of main_v16 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Ends

end
-- ==== Proof.lean ====
/-
  A ternary-weight linear layer: out(b, s, o) = Σ_k x(b, s, k) · W(o, k) for x : [4, 2048, 4096] and a weight
  W = (w + (q − w)) · scale[o] : [16384, 4096], q the quantisation of w to {−1, 0, 1} by the thresholds ±0.5.
  The kernel prepares W on the host, flattens x to [8192, 4096] rows, multiplies 512-row blocks of x by the transposes
  of 1024-row blocks of W on a 16 × 16 grid, each block product into a zero accumulator, and reshapes the
  [8192, 16384] result back; the reference prepares the same W and contracts the last axes of x and W in one product.
  On the extended reals a change of float format is the identity and each block product is the plain sum over the 4096
  features, so both programs end at the same sum at every (b, s, o): the two terms are joined without any algebraic law
  (the weight's term is never opened), and no use is made of the inputs being finite.
  The word-level kernel's and the idealized kernel's frames are the generated ones; the reference's frame is its
  generated run with the result dropped; the idealization rewrote nothing, so there is nothing to preserve.
-/
import proofs.«127672_j80994493268388_1_alg».proof.Defs
import proofs.«127672_j80994493268388_1_alg».proof.Proof.Gen.Kernel
import proofs.«127672_j80994493268388_1_alg».proof.Proof.Gen.Kernel.Skeleton
import proofs.«127672_j80994493268388_1_alg».proof.Proof.Gen.Kernel.Launch
import proofs.«127672_j80994493268388_1_alg».proof.Proof.Gen.Kernel.Points
import proofs.«127672_j80994493268388_1_alg».proof.Proof.Gen.Kernel.Frame
import proofs.«127672_j80994493268388_1_alg».proof.Proof.Gen.KernelIdeal
import proofs.«127672_j80994493268388_1_alg».proof.Proof.Gen.KernelIdeal.Skeleton
import proofs.«127672_j80994493268388_1_alg».proof.Proof.Gen.KernelIdeal.Launch
import proofs.«127672_j80994493268388_1_alg».proof.Proof.Gen.KernelIdeal.Points
import proofs.«127672_j80994493268388_1_alg».proof.Proof.Gen.KernelIdeal.Frame
import proofs.«127672_j80994493268388_1_alg».proof.Proof.Gen.ReferenceIdeal
import proofs.«127672_j80994493268388_1_alg».proof.Proof.Gen.Pre_finite_inputs
import proofs.«127672_j80994493268388_1_alg».proof.Proof.Gen.ReferenceIdeal.Run
import proofs.«127672_j80994493268388_1_alg».proof.Proof.Gen.ReferenceIdeal.Read
import proofs.«127672_j80994493268388_1_alg».proof.Proof.RefSide
import proofs.«127672_j80994493268388_1_alg».proof.Proof.KernelEnds
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x, w and scale both programs end with the linear layer of x and the prepared weight. -/
theorem algebraic : Cert.algebraic_KernelIdeal_ReferenceIdeal := by
  intro m ρ m' ρ' _ hagree
  refine ⟨fun c => Cert.TernaryLinear.linear (m ((c.tc : Thread Cert.KernelIdeal.nD Cert.KernelIdeal.τ).loc Cert.KernelIdeal.main_arg0))
      (Cert.KernelIdeal.Ends.weight m c), Cert.KernelIdeal.Ends.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v12_eq _ _ _).trans ?_
  rw [Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
